-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x1024 : Shape := ⟨3, ![128, 1024, 1024]⟩
abbrev S128 : Shape := ⟨1, ![128]⟩
abbrev S64x1 : Shape := ⟨2, ![64, 1]⟩
abbrev S_ : Shape := ⟨0, ![]⟩

class Facts : Prop where
  bcast_S_S128x1024x1024 : S_.BroadcastsInDim S128x1024x1024 (![] : Fin 0 → Fin S128x1024x1024.rank)
  reducesTo_S128x1024x1024_S_d0_1_2 : S128x1024x1024.ReducesTo [0, 1, 2] S_
  h_S_ : 0 < S_.numel
  bcast_S_S64x1 : S_.BroadcastsInDim S64x1 (![] : Fin 0 → Fin S64x1.rank)
  reducesTo_S64x1_S_d0_1 : S64x1.ReducesTo [0, 1] S_

variable [Facts]

def fn {F : FTy → Type} [FloatOps F] (main_arg0 : FVec F S128x1024x1024 .f32) (main_arg1 : IVec S128 32) (main_arg2 : FVec F S64x1 .f32) (main_arg3 : FVec F S64x1 .f32) : IVec S_ 1 :=
  let main_v0 : FVec F S128x1024x1024 .f32 := Host.absf main_arg0
  let main_cst : FVec F S_ .f32 := constant S_ .f32 0x7F800000#32
  let main_v1 : FVec F S128x1024x1024 .f32 := broadcastInDim S128x1024x1024 ![] bcast_S_S128x1024x1024 main_cst
  let main_v2 : IVec S128x1024x1024 1 := cmpf .olt main_v0 main_v1
  let main_c : IVec S_ 1 := constantI S_ 1 1#1
  let main_v3 : IVec S_ 1 := (fun x v => Host.reduce IntOp.andi x v reducesTo_S128x1024x1024_S_d0_1_2 h_S_) main_v2 main_c
  let main_v4 : FVec F S64x1 .f32 := Host.absf main_arg2
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S64x1 .f32 := Host.absf main_arg3
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  main_v13
-- ==== Kernel.lean ====
abbrev S128x1024x1024 : Shape := ⟨3, ![128, 1024, 1024]⟩
abbrev S128 : Shape := ⟨1, ![128]⟩
abbrev S64x1 : Shape := ⟨2, ![64, 1]⟩
abbrev S128x1x64 : Shape := ⟨3, ![128, 1, 64]⟩
abbrev S1x1024x1024 : Shape := ⟨3, ![1, 1024, 1024]⟩
abbrev S1x1x64 : Shape := ⟨3, ![1, 1, 64]⟩
abbrev S1 : Shape := ⟨1, ![1]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S64x1024 : Shape := ⟨2, ![64, 1024]⟩
abbrev S64 : Shape := ⟨1, ![64]⟩
abbrev S1x64 : Shape := ⟨2, ![1, 64]⟩
abbrev S128x64 : Shape := ⟨2, ![128, 64]⟩
abbrev S1x128x64 : Shape := ⟨3, ![1, 128, 64]⟩
abbrev S2x128x64 : Shape := ⟨3, ![2, 128, 64]⟩

abbrev nBuf : Space → Nat
  | .hbm => 10
  | .vmem => 8
  | .smem => 1
  | _ => 0

abbrev bufTy : (tb : Table) → Fin (tcTables nBuf tb) → BufTy
  | .hbm, ⟨0, _⟩ => ⟨S128x1024x1024, .f32⟩
  | .hbm, ⟨1, _⟩ => ⟨S64x1, .f32⟩
  | .hbm, ⟨2, _⟩ => ⟨S64x1, .f32⟩
  | .hbm, ⟨3, _⟩ => ⟨S128x1x64, .f32⟩
  | .hbm, ⟨4, _⟩ => ⟨S128x1x64, .f32⟩
  | .hbm, ⟨5, _⟩ => ⟨S128x64, .f32⟩
  | .hbm, ⟨6, _⟩ => ⟨S128x64, .f32⟩
  | .hbm, ⟨7, _⟩ => ⟨S1x128x64, .f32⟩
  | .hbm, ⟨8, _⟩ => ⟨S1x128x64, .f32⟩
  | .hbm, ⟨9, _⟩ => ⟨S2x128x64, .f32⟩
  | .local _ .vmem, ⟨0, _⟩ => ⟨S1x1024x1024, .f32⟩
  | .local _ .vmem, ⟨1, _⟩ => ⟨S1x1024x1024, .f32⟩
  | .local _ .vmem, ⟨2, _⟩ => ⟨S64x1, .f32⟩
  | .local _ .vmem, ⟨3, _⟩ => ⟨S64x1, .f32⟩
  | .local _ .vmem, ⟨4, _⟩ => ⟨S1x1x64, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | .local _ .smem, ⟨0, _⟩ => ⟨S128, .i32⟩
  | _, _ => ⟨S128x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  numel1_S1 : S1.numel = 1
  iota_S1024x1_d0_w32 : S1024x1.Iotas .tc 32 [0]
  iota_S1x1024_d1_w32 : S1x1024.Iotas .tc 32 [1]
  natLt_1_32 : 1 < 32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  inb_S64x1_S64x1_0_0 : ∀ a, (![0, 0] : Fin 2 → Nat) a + S64x1.size a ≤ S64x1.size a
  h_S64x1 : 0 < S64x1.numel
  shapeCasts_S1024_S1x1024 : S1024.ShapeCasts S1x1024
  broadcasts_S1x1024_S64x1024 : S1x1024.Broadcasts S64x1024
  broadcasts_S64x1_S64x1024 : S64x1.Broadcasts S64x1024
  reduces_S64x1024_S64 : S64x1024.Reduces [1] S64
  shapeCasts_S64_S1x64 : S64.ShapeCasts S1x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  shapeCasts_S128x1x64_S128x64 : S128x1x64.ShapeCasts S128x64
  bcast_S128x64_S1x128x64_1_2 : S128x64.BroadcastsInDim S1x128x64 (![1, 2] : Fin 2 → Fin S1x128x64.rank)
  concatenates_S1x128x64_S1x128x64_S2x128x64_d0 : Shape.Concatenates [S1x128x64, S1x128x64] S2x128x64 0
  hrank0 : 0 < grid0.rank
  k0_off1_inb : ∀ i : grid0.Coords, ∀ a, (k0_off1 i) a + S1.size a ≤ S128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S128x1024x1024.size a
  hwx0_0 : ∀ i : grid0.Coords, EltTy.bits .f32 = 32 ∨ (Rect.block (s := S128x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S128x1x64.size a
  hwx0_3 : ∀ i : grid0.Coords, EltTy.bits .f32 = 32 ∨ (Rect.block (s := S128x1x64) S1x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S128x1x64.size a
  hwx0_4 : ∀ i : grid0.Coords, EltTy.bits .f32 = 32 ∨ (Rect.block (s := S128x1x64) S1x1x64.size (cc0_transform_4 i) (hinb0_4 i)).WholeWords (EltTy.packing .f32)

variable [Facts₀]

abbrev spec0_0 : Pipeline.WinSpec sig grid0.rank :=
  Pipeline.WinSpec.ofSpec (Memref.whole main_arg0) S1x1024x1024.size reads0_0 false false 2 stage0_0 sem0_0 nbuf0_0 hstage0_0

abbrev spec0_1 : Pipeline.WinSpec sig grid0.rank :=
  Pipeline.WinSpec.ofSpec (Memref.whole main_arg2) S64x1.size reads0_1 false true 1 stage0_1 sem0_1 nbuf0_1 hstage0_1

abbrev spec0_2 : Pipeline.WinSpec sig grid0.rank :=
  Pipeline.WinSpec.ofSpec (Memref.whole main_arg3) S64x1.size reads0_2 false true 1 stage0_2 sem0_2 nbuf0_2 hstage0_2

abbrev spec0_3 : Pipeline.WinSpec sig grid0.rank :=
  Pipeline.WinSpec.ofSpec (Memref.whole main_v0_0) S1x1x64.size reads0_3 true false 2 stage0_3 sem0_3 nbuf0_3 hstage0_3

abbrev spec0_4 : Pipeline.WinSpec sig grid0.rank :=
  Pipeline.WinSpec.ofSpec (Memref.whole main_v0_1) S1x1x64.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | ⟨_ + 5, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S128x1024x1024 : Shape := ⟨3, ![128, 1024, 1024]⟩
abbrev S128 : Shape := ⟨1, ![128]⟩
abbrev S64x1 : Shape := ⟨2, ![64, 1]⟩
abbrev S1024 : Shape := ⟨1, ![1024]⟩
abbrev S1x1024 : Shape := ⟨2, ![1, 1024]⟩
abbrev S128x1 : Shape := ⟨2, ![128, 1]⟩
abbrev S128x1024 : Shape := ⟨2, ![128, 1024]⟩
abbrev S128x1024x1 : Shape := ⟨3, ![128, 1024, 1]⟩
abbrev S128x1x1024 : Shape := ⟨3, ![128, 1, 1024]⟩
abbrev S_ : Shape := ⟨0, ![]⟩
abbrev S1x64x1 : Shape := ⟨3, ![1, 64, 1]⟩
abbrev S128x64x1024 : Shape := ⟨3, ![128, 64, 1024]⟩
abbrev S128x64 : Shape := ⟨2, ![128, 64]⟩
abbrev S1x128x64 : Shape := ⟨3, ![1, 128, 64]⟩
abbrev S2x128x64 : Shape := ⟨3, ![2, 128, 64]⟩

abbrev nBuf : Space → Nat
  | .hbm => 64
  | .vmem => 0
  | .smem => 0
  | _ => 0

abbrev bufTy : (tb : Table) → Fin (tcTables nBuf tb) → BufTy
  | .hbm, ⟨0, _⟩ => ⟨S128x1024x1024, .f32⟩
  | .hbm, ⟨1, _⟩ => ⟨S128, .i32⟩
  | .hbm, ⟨2, _⟩ => ⟨S64x1, .f32⟩
  | .hbm, ⟨3, _⟩ => ⟨S64x1, .f32⟩
  | .hbm, ⟨4, _⟩ => ⟨S1024, .i32⟩
  | .hbm, ⟨5, _⟩ => ⟨S1x1024, .i32⟩
  | .hbm, ⟨6, _⟩ => ⟨S128x1, .i32⟩
  | .hbm, ⟨7, _⟩ => ⟨S128x1024, .i32⟩
  | .hbm, ⟨8, _⟩ => ⟨S128x1024, .i32⟩
  | .hbm, ⟨9, _⟩ => ⟨S128x1024, .i1⟩
  | .hbm, ⟨10, _⟩ => ⟨S128x1024, .f32⟩
  | .hbm, ⟨11, _⟩ => ⟨S128x1024x1, .f32⟩
  | .hbm, ⟨12, _⟩ => ⟨S128x1024x1024, .f32⟩
  | .hbm, ⟨13, _⟩ => ⟨S128x1024x1024, .f32⟩
  | .hbm, ⟨14, _⟩ => ⟨S128x1x1024, .f32⟩
  | .hbm, ⟨15, _⟩ => ⟨S128x1024x1024, .f32⟩
  | .hbm, ⟨16, _⟩ => ⟨S128x1024x1024, .f32⟩
  | .hbm, ⟨17, _⟩ => ⟨S_, .f32⟩
  | .hbm, ⟨18, _⟩ => ⟨S128x1024, .f32⟩
  | .hbm, ⟨19, _⟩ => ⟨S128x1x1024, .f32⟩
  | .hbm, ⟨20, _⟩ => ⟨S1x64x1, .f32⟩
  | .hbm, ⟨21, _⟩ => ⟨S128x64x1024, .f32⟩
  | .hbm, ⟨22, _⟩ => ⟨S128x64x1024, .f32⟩
  | .hbm, ⟨23, _⟩ => ⟨S128x64x1024, .f32⟩
  | .hbm, ⟨24, _⟩ => ⟨S128x64x1024, .f32⟩
  | .hbm, ⟨25, _⟩ => ⟨S1x64x1, .f32⟩
  | .hbm, ⟨26, _⟩ => ⟨S128x64x1024, .f32⟩
  | .hbm, ⟨27, _⟩ => ⟨S128x64x1024, .f32⟩
  | .hbm, ⟨28, _⟩ => ⟨S_, .f32⟩
  | .hbm, ⟨29, _⟩ => ⟨S128x64x1024, .f32⟩
  | .hbm, ⟨30, _⟩ => ⟨S128x64x1024, .f32⟩
  | .hbm, ⟨31, _⟩ => ⟨S_, .f32⟩
  | .hbm, ⟨32, _⟩ => ⟨S128x64x1024, .f32⟩
  | .hbm, ⟨33, _⟩ => ⟨S128x64x1024, .f32⟩
  | .hbm, ⟨34, _⟩ => ⟨S128x1x1024, .f32⟩
  | .hbm, ⟨35, _⟩ => ⟨S128x64x1024, .f32⟩
  | .hbm, ⟨36, _⟩ => ⟨S128x64x1024, .f32⟩
  | .hbm, ⟨37, _⟩ => ⟨S_, .f32⟩
  | .hbm, ⟨38, _⟩ => ⟨S128x64, .f32⟩
  | .hbm, ⟨39, _⟩ => ⟨S_, .f32⟩
  | .hbm, ⟨40, _⟩ => ⟨S128x1024, .f32⟩
  | .hbm, ⟨41, _⟩ => ⟨S128x1x1024, .f32⟩
  | .hbm, ⟨42, _⟩ => ⟨S1x64x1, .f32⟩
  | .hbm, ⟨43, _⟩ => ⟨S128x64x1024, .f32⟩
  | .hbm, ⟨44, _⟩ => ⟨S128x64x1024, .f32⟩
  | .hbm, ⟨45, _⟩ => ⟨S128x64x1024, .f32⟩
  | .hbm, ⟨46, _⟩ => ⟨S128x64x1024, .f32⟩
  | .hbm, ⟨47, _⟩ => ⟨S1x64x1, .f32⟩
  | .hbm, ⟨48, _⟩ => ⟨S128x64x1024, .f32⟩
  | .hbm, ⟨49, _⟩ => ⟨S128x64x1024, .f32⟩
  | .hbm, ⟨50, _⟩ => ⟨S_, .f32⟩
  | .hbm, ⟨51, _⟩ => ⟨S128x64x1024, .f32⟩
  | .hbm, ⟨52, _⟩ => ⟨S128x64x1024, .f32⟩
  | .hbm, ⟨53, _⟩ => ⟨S_, .f32⟩
  | .hbm, ⟨54, _⟩ => ⟨S128x64x1024, .f32⟩
  | .hbm, ⟨55, _⟩ => ⟨S128x64x1024, .f32⟩
  | .hbm, ⟨56, _⟩ => ⟨S128x1x1024, .f32⟩
  | .hbm, ⟨57, _⟩ => ⟨S128x64x1024, .f32⟩
  | .hbm, ⟨58, _⟩ => ⟨S128x64x1024, .f32⟩
  | .hbm, ⟨59, _⟩ => ⟨S_, .f32⟩
  | .hbm, ⟨60, _⟩ => ⟨S128x64, .f32⟩
  | .hbm, ⟨61, _⟩ => ⟨S1x128x64, .f32⟩
  | .hbm, ⟨62, _⟩ => ⟨S1x128x64, .f32⟩
  | .hbm, ⟨63, _⟩ => ⟨S2x128x64, .f32⟩
  | _, _ => ⟨S128x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_call0_cst : Ref sig .tc := ⟨.hbm, 31, rfl⟩
abbrev main_call0_v0 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_call1_cst : Ref sig .tc := ⟨.hbm, 53, rfl⟩
abbrev main_call1_v0 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S128_S128x1_0 : S128.BroadcastsInDim S128x1 (![0] : Fin 1 → Fin S128x1.rank)
  bcast_S1x1024_S128x1024_0_1 : S1x1024.BroadcastsInDim S128x1024 (![0, 1] : Fin 2 → Fin S128x1024.rank)
  bcast_S128x1_S128x1024_0_1 : S128x1.BroadcastsInDim S128x1024 (![0, 1] : Fin 2 → Fin S128x1024.rank)
  bcast_S128x1024_S128x1024x1_0_1 : S128x1024.BroadcastsInDim S128x1024x1 (![0, 1] : Fin 2 → Fin S128x1024x1.rank)
  bcast_S128x1024x1_S128x1024x1024_0_1_2 : S128x1024x1.BroadcastsInDim S128x1024x1024 (![0, 1, 2] : Fin 3 → Fin S128x1024x1024.rank)
  bcast_S128x1024_S128x1x1024_0_2 : S128x1024.BroadcastsInDim S128x1x1024 (![0, 2] : Fin 2 → Fin S128x1x1024.rank)
  bcast_S128x1x1024_S128x1024x1024_0_1_2 : S128x1x1024.BroadcastsInDim S128x1024x1024 (![0, 1, 2] : Fin 3 → Fin S128x1024x1024.rank)
  reducesTo_S128x1024x1024_S128x1024_d2 : S128x1024x1024.ReducesTo [2] S128x1024
  h_S_ : 0 < S_.numel
  bcast_S64x1_S1x64x1_1_2 : S64x1.BroadcastsInDim S1x64x1 (![1, 2] : Fin 2 → Fin S1x64x1.rank)
  bcast_S128x1x1024_S128x64x1024_0_1_2 : S128x1x1024.BroadcastsInDim S128x64x1024 (![0, 1, 2] : Fin 3 → Fin S128x64x1024.rank)
  bcast_S1x64x1_S128x64x1024_0_1_2 : S1x64x1.BroadcastsInDim S128x64x1024 (![0, 1, 2] : Fin 3 → Fin S128x64x1024.rank)
  bcast_S_S128x64x1024 : S_.BroadcastsInDim S128x64x1024 (![] : Fin 0 → Fin S128x64x1024.rank)
  reducesTo_S128x64x1024_S128x64_d2 : S128x64x1024.ReducesTo [2] S128x64
  reducesTo_S128x1024x1024_S128x1024_d1 : S128x1024x1024.ReducesTo [1] S128x1024
  bcast_S128x64_S1x128x64_1_2 : S128x64.BroadcastsInDim S1x128x64 (![1, 2] : Fin 2 → Fin S1x128x64.rank)
  concatenates_S1x128x64_S1x128x64_S2x128x64_d0 : Shape.Concatenates [S1x128x64, S1x128x64] S2x128x64 0

variable [Facts₀]

class Facts : Prop extends Facts₀ where

variable [Facts]
-- ==== Proof.Spec.lean ====
/-
  The value both programs compute: for each graph b of a batch of 128, with n_b its node count, the adjacency
  entries of rows and columns at or past n_b are zeroed (each entry times the two 0/1 validity factors);
  the masked matrix's row sums and column sums are the two degree vectors; each degree vector is turned into
  a 64-bin triangular soft histogram, bin k collecting over the valid nodes j the weight
  max (1 - |deg j - center k| * width k) 0.  The result stacks the row-degree histogram on the
  column-degree histogram.  Everything is an extended real; the node counts are signed 32-bit words.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.DegreeHist

open Idealize.ShloMosaic Idealize.ShloMosaic.ValueIdx

abbrev SAdj : Shape := ⟨3, ![128, 1024, 1024]⟩
abbrev SNum : Shape := ⟨1, ![128]⟩
abbrev SBin : Shape := ⟨2, ![64, 1]⟩
abbrev SHist : Shape := ⟨2, ![128, 64]⟩
abbrev SHist1 : Shape := ⟨3, ![1, 128, 64]⟩
abbrev SOut : Shape := ⟨3, ![2, 128, 64]⟩

/-- The float one and zero, as the words both programs print. -/
abbrev one : EReal := Ideal.ofBits .f32 0x3F800000#32
abbrev zero : EReal := Ideal.ofBits .f32 0x00000000#32

/-- Node j of a graph of n nodes is valid: 1 when j < n as signed 32-bit words, else 0. -/
def valid (n : BitVec 32) (j : Nat) : EReal := (((IntOp.cmpi .slt (BitVec.ofNat 32 j) n).toNat : ℝ) : EReal)

/-- A one-bit word widened to 32 bits and read signed is the bit. -/
theorem setWidth_toInt (b : BitVec 1) : ((b.setWidth 32).toInt : ℤ) = (b.toNat : ℤ) := by
  rcases BitVec.eq_zero_or_eq_one b with h | h <;> subst h <;> decide

/-- The kernel's mask (compare, widen, convert signed) is the validity factor. -/
theorem valid_of_sitofp (n : BitVec 32) (j : Nat) :
    FloatOps.sitofp (F := Ideal) .f32 ((IntOp.cmpi .slt (BitVec.ofNat 32 j) n).setWidth 32) = valid n j := by
  show (((((IntOp.cmpi .slt (BitVec.ofNat 32 j) n).setWidth 32).toInt : ℤ) : ℝ) : EReal) = _
  rw [setWidth_toInt]
  simp [valid]

/-- The reference's mask (compare, convert unsigned) is the validity factor. -/
theorem valid_of_uitofp (n : BitVec 32) (j : Nat) :
    FloatOps.uitofp (F := Ideal) .f32 (IntOp.cmpi .slt (BitVec.ofNat 32 j) n) = valid n j := rfl

/-- Entry (b, i, j) of the adjacency with rows and columns at or past the node count zeroed. -/
def masked (adj : SAdj.Idx → EReal) (n : BitVec 32) (b : Fin 128) (i j : Fin 1024) : EReal :=
  adj (ix3 b i j) * valid n i.val * valid n j.val

/-- Row sums and column sums of the masked adjacency of graph b. -/
def rowDeg (adj : SAdj.Idx → EReal) (n : BitVec 32) (b : Fin 128) (i : Fin 1024) : EReal :=
  ∑ j : Fin 1024, masked adj n b i j
def colDeg (adj : SAdj.Idx → EReal) (n : BitVec 32) (b : Fin 128) (j : Fin 1024) : EReal :=
  ∑ i : Fin 1024, masked adj n b i j

/-- One node's weight in bin k. -/
def weight (n : BitVec 32) (ctr wid : SBin.Idx → EReal) (deg : Fin 1024 → EReal) (k : Fin 64) (j : Fin 1024) : EReal :=
  max (one - max (deg j - ctr (ix2 k 0)) (-(deg j - ctr (ix2 k 0))) * wid (ix2 k 0)) zero * valid n j.val

/-- Bin k of the soft histogram of a degree vector. -/
def bin (n : BitVec 32) (ctr wid : SBin.Idx → EReal) (deg : Fin 1024 → EReal) (k : Fin 64) : EReal :=
  ∑ j : Fin 1024, weight n ctr wid deg k j

/-- The two histograms, per graph and bin. -/
def histIn (adj : SAdj.Idx → EReal) (num : SNum.Idx → BitVec 32) (ctr wid : SBin.Idx → EReal) : SHist.Idx → EReal :=
  fun i => bin (num (ix1 (i 0))) ctr wid (rowDeg adj (num (ix1 (i 0))) (i 0)) (i 1)
def histOut (adj : SAdj.Idx → EReal) (num : SNum.Idx → BitVec 32) (ctr wid : SBin.Idx → EReal) : SHist.Idx → EReal :=
  fun i => bin (num (ix1 (i 0))) ctr wid (colDeg adj (num (ix1 (i 0))) (i 0)) (i 1)

theorem histIn_apply (adj : SAdj.Idx → EReal) (num : SNum.Idx → BitVec 32) (ctr wid : SBin.Idx → EReal) (b : Fin 128) (k : Fin 64) :
    histIn adj num ctr wid (ix2 b k) = bin (num (ix1 b)) ctr wid (rowDeg adj (num (ix1 b)) b) k := rfl
theorem histOut_apply (adj : SAdj.Idx → EReal) (num : SNum.Idx → BitVec 32) (ctr wid : SBin.Idx → EReal) (b : Fin 128) (k : Fin 64) :
    histOut adj num ctr wid (ix2 b k) = bin (num (ix1 b)) ctr wid (colDeg adj (num (ix1 b)) b) k := rfl

theorem bcast_hist : SHist.BroadcastsInDim SHist1 (![1, 2] : Fin 2 → Fin SHist1.rank) := by decide
theorem concat_hist : Shape.Concatenates [SHist1, SHist1] SOut 0 := by decide

/-- Two [128, 64] arrays stacked along a new leading axis: what both programs end with. -/
def stack (a b : SHist.Idx → EReal) : SOut.Idx → EReal :=
  concatenate SOut 0 [⟨SHist1, broadcastInDim SHist1 ![1, 2] bcast_hist a⟩, ⟨SHist1, broadcastInDim SHist1 ![1, 2] bcast_hist b⟩] concat_hist

/-- THE RESULT: the row-degree histogram stacked on the column-degree histogram. -/
def result (adj : SAdj.Idx → EReal) (num : SNum.Idx → BitVec 32) (ctr wid : SBin.Idx → EReal) : SOut.Idx → EReal :=
  stack (histIn adj num ctr wid) (histOut adj num ctr wid)

end Cert.DegreeHist

end
-- ==== Proof.KernelBody.lean ====
/-
  The kernel body's stored values read at an index, at the ideal instance: the validity masks, the masked
  adjacency block, its row and column sums, and the two soft-histogram rows.
-/
import proofs.«400375_j15135464751755_1_alg».proof.Proof.Gen.KernelIdeal.Skeleton
import proofs.«400375_j15135464751755_1_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Cert.DegreeHist
open Idealize.ShloMosaic Idealize.ShloMosaic.ValueIdx

/-! ## The layout operations of the body, read at an index by coordinates -/

/-- A [1, 1024] row broadcast down 64 (or 1024) rows reads the row at the column. -/
theorem bcast_row64 {α : Type} (x : S1x1024.Idx → α) (h : S1x1024.Broadcasts S64x1024) (k : Fin 64) (j : Fin 1024) :
    broadcastTo S64x1024 x h (ix2 k j) = x (ix2 0 j) :=
  broadcastTo_apply x h (ix2 k j) (ix2 0 j) (fun a => by match a with | ⟨0, _⟩ => rfl | ⟨1, _⟩ => rfl)
theorem bcast_row1024 {α : Type} (x : S1x1024.Idx → α) (h : S1x1024.Broadcasts S1024x1024) (i j : Fin 1024) :
    broadcastTo S1024x1024 x h (ix2 i j) = x (ix2 0 j) :=
  broadcastTo_apply x h (ix2 i j) (ix2 0 j) (fun a => by match a with | ⟨0, _⟩ => rfl | ⟨1, _⟩ => rfl)
/-- A [64, 1] (or [1024, 1]) column broadcast across 1024 columns reads the column at the row. -/
theorem bcast_col64 {α : Type} (x : S64x1.Idx → α) (h : S64x1.Broadcasts S64x1024) (k : Fin 64) (j : Fin 1024) :
    broadcastTo S64x1024 x h (ix2 k j) = x (ix2 k 0) :=
  broadcastTo_apply x h (ix2 k j) (ix2 k 0) (fun a => by match a with | ⟨0, _⟩ => rfl | ⟨1, _⟩ => rfl)
theorem bcast_col1024 {α : Type} (x : S1024x1.Idx → α) (h : S1024x1.Broadcasts S1024x1024) (i j : Fin 1024) :
    broadcastTo S1024x1024 x h (ix2 i j) = x (ix2 i 0) :=
  broadcastTo_apply x h (ix2 i j) (ix2 i 0) (fun a => by match a with | ⟨0, _⟩ => rfl | ⟨1, _⟩ => rfl)

/-- A length-1024 vector viewed as a [1, 1024] row. -/
theorem cast_row {α : Type} (v : S1024.Idx → α) (h : S1024.ShapeCasts S1x1024) (j : Fin 1024) :
    shapeCast S1x1024 v h (ix2 0 j) = v (ix1 j) :=
  (shapeCast_addUnit_apply ![1024] v h (ix2 0 j)).trans (congrArg v (funext fun a => by match a with | ⟨0, _⟩ => rfl))

/-- A [1, 1024, 1024] block viewed as a [1024, 1024] matrix. -/
theorem cast_block {α : Type} (v : S1x1024x1024.Idx → α) (h : S1x1024x1024.ShapeCasts S1024x1024) (i j : Fin 1024) :
    shapeCast S1024x1024 v h (ix2 i j) = v (ix3 0 i j) :=
  (shapeCast_dropUnit_apply ![1024, 1024] v h (ix2 i j)).trans
    (congrArg v (funext fun a => by match a with | ⟨0, _⟩ => rfl | ⟨1, _⟩ => rfl | ⟨2, _⟩ => rfl))

/-- A length-64 vector viewed as a [1, 64] row and then as a [1, 1, 64] block. -/
theorem cast_out {α : Type} (v : S64.Idx → α) (h1 : S64.ShapeCasts S1x64) (h2 : S1x64.ShapeCasts S1x1x64) (k : Fin 64) :
    shapeCast S1x1x64 (shapeCast S1x64 v h1) h2 (ix3 0 0 k) = v (ix1 k) :=
  (shapeCast_addUnit_apply ![1, 64] (shapeCast S1x64 v h1) h2 (ix3 0 0 k)).trans
    ((shapeCast_addUnit_apply ![64] v h1 _).trans (congrArg v (funext fun a => by match a with | ⟨0, _⟩ => rfl)))

/-- The lane sum of a [64, 1024] array, and the row and column sums of a [1024, 1024] one. -/
theorem sum_lanes (v : FVec Ideal S64x1024 .f32) (h : S64x1024.Reduces [1] S64) (hφ : FKind.Formats .f32)
    (hacc : (0x00000000#32 : BitVec 32) = FKind.add.neutral .f32 hφ) (k : Fin 64) :
    multiReduction .add [1] S64 v 0x00000000#32 h hφ hacc (ix1 k) = ∑ j : Fin 1024, v (ix2 k j) :=
  (Ideal.multiReduction_add_single v 0x00000000#32 h hφ hacc (ix1 k)).trans
    (Finset.sum_congr rfl fun j _ => congrArg v (funext fun a => by match a with | ⟨0, _⟩ => rfl | ⟨1, _⟩ => rfl))
theorem sum_rows (v : FVec Ideal S1024x1024 .f32) (h : S1024x1024.Reduces [1] S1024) (hφ : FKind.Formats .f32)
    (hacc : (0x00000000#32 : BitVec 32) = FKind.add.neutral .f32 hφ) (i : Fin 1024) :
    multiReduction .add [1] S1024 v 0x00000000#32 h hφ hacc (ix1 i) = ∑ j : Fin 1024, v (ix2 i j) :=
  (Ideal.multiReduction_add_single v 0x00000000#32 h hφ hacc (ix1 i)).trans
    (Finset.sum_congr rfl fun j _ => congrArg v (funext fun a => by match a with | ⟨0, _⟩ => rfl | ⟨1, _⟩ => rfl))
theorem sum_cols (v : FVec Ideal S1024x1024 .f32) (h : S1024x1024.Reduces [0] S1024) (hφ : FKind.Formats .f32)
    (hacc : (0x00000000#32 : BitVec 32) = FKind.add.neutral .f32 hφ) (j : Fin 1024) :
    multiReduction .add [0] S1024 v 0x00000000#32 h hφ hacc (ix1 j) = ∑ i : Fin 1024, v (ix2 i j) :=
  (Ideal.multiReduction_add_single v 0x00000000#32 h hφ hacc (ix1 j)).trans
    (Finset.sum_congr rfl fun i _ => congrArg v (funext fun a => by match a with | ⟨0, _⟩ => rfl | ⟨1, _⟩ => rfl))

/-! ## The stored values -/

/-- The column mask at column j is the validity factor of j. -/
theorem colMask_apply (n : BitVec 32) (j : Fin 1024) : k0_pay2 (F := Ideal) n (ix2 0 j) = valid n j.val := by
  unfold k0_pay2
  show FloatOps.sitofp (F := Ideal) .f32 ((IntOp.cmpi .slt (iota .tc S1x1024 32 [1] _ (ix2 0 j)) n).setWidth 32) = _
  rw [iota_single_apply]
  exact valid_of_sitofp n j.val

/-- The masked adjacency block at (i, j): the block's entry times the two validity factors. -/
theorem maskedBlock_apply (n : BitVec 32) (x : Vec Ideal S1x1024x1024 .f32) (i j : Fin 1024) :
    k0_pay3 (F := Ideal) n x (ix2 i j) = x (ix3 0 i j) * valid n i.val * valid n j.val := by
  unfold k0_pay3
  show shapeCast S1024x1024 x _ (ix2 i j) * broadcastTo S1024x1024 _ _ (ix2 i j) * broadcastTo S1024x1024 (k0_pay2 (F := Ideal) n) _ (ix2 i j) = _
  rw [cast_block, bcast_col1024, bcast_row1024, colMask_apply]
  refine congrArg (fun z => x (ix3 0 i j) * z * valid n j.val) ?_
  show FloatOps.sitofp (F := Ideal) .f32 ((IntOp.cmpi .slt (iota .tc S1024x1 32 [0] _ (ix2 i 0)) n).setWidth 32) = _
  rw [iota_single_apply]
  exact valid_of_sitofp n i.val

/-- The broadcast column-sum vector at (k, j): the sum over the rows of the masked block's column j. -/
theorem colSums_apply (n : BitVec 32) (x : Vec Ideal S1x1024x1024 .f32) (k : Fin 64) (j : Fin 1024) :
    k0_pay5 (F := Ideal) n x (ix2 k j) = ∑ i : Fin 1024, k0_pay3 (F := Ideal) n x (ix2 i j) := by
  unfold k0_pay5
  show broadcastTo S64x1024 (shapeCast S1x1024 (multiReduction .add [0] S1024 (k0_pay3 (F := Ideal) n x) 0x00000000#32 _ _ _) _) _ (ix2 k j) = _
  rw [bcast_row64, cast_row]
  exact sum_cols _ _ _ _ j

/-- The broadcast bin centers at (k, j): center k. -/
theorem centers_apply (c : Vec Ideal S64x1 .f32) (k : Fin 64) (j : Fin 1024) :
    k0_pay6 (F := Ideal) c (ix2 k j) = c (ix2 k 0) := by
  unfold k0_pay6
  exact bcast_col64 _ _ k j

/-- One entry of a histogram row from its ingredients: the degree row d, the centers c (both already
    broadcast to [64, 1024]), the widths w and the column mask mk. -/
theorem histRow_apply (mk : FVec Ideal S1x1024 .f32) (w : Vec Ideal S64x1 .f32) (d c : FVec Ideal S64x1024 .f32) (k : Fin 64) :
    k0_pay1 (F := Ideal) mk w d c (ix3 0 0 k)
      = ∑ j : Fin 1024, max (one - max (d (ix2 k j) - c (ix2 k j)) (-(d (ix2 k j) - c (ix2 k j))) * w (ix2 k 0)) zero * mk (ix2 0 j) := by
  unfold k0_pay1
  refine (cast_out _ _ _ k).trans ?_
  refine (sum_lanes _ _ _ _ k).trans ?_
  refine Finset.sum_congr rfl fun j _ => ?_
  show max (one - max (d (ix2 k j) - c (ix2 k j)) (-(d (ix2 k j) - c (ix2 k j))) * broadcastTo S64x1024 w _ (ix2 k j)) zero * broadcastTo S64x1024 mk _ (ix2 k j) = _
  rw [bcast_col64, bcast_row64]

/-- The row-degree histogram row the body stores first, bin k: the soft histogram of the masked block's row sums. -/
theorem histIn_row (n : BitVec 32) (x : Vec Ideal S1x1024x1024 .f32) (c w : Vec Ideal S64x1 .f32) (k : Fin 64) :
    k0_pay4 (F := Ideal) n x c w (ix3 0 0 k)
      = bin n c w (fun j => ∑ l : Fin 1024, x (ix3 0 j l) * valid n j.val * valid n l.val) k := by
  unfold k0_pay4
  refine (cast_out _ _ _ k).trans ?_
  refine (sum_lanes _ _ _ _ k).trans ?_
  unfold bin weight
  refine Finset.sum_congr rfl fun j _ => ?_
  show max (one - max (broadcastTo S64x1024 (shapeCast S1x1024 (multiReduction .add [1] S1024 (k0_pay3 (F := Ideal) n x) 0x00000000#32 _ _ _) _) _ (ix2 k j) - broadcastTo S64x1024 c _ (ix2 k j))
      (-(broadcastTo S64x1024 (shapeCast S1x1024 (multiReduction .add [1] S1024 (k0_pay3 (F := Ideal) n x) 0x00000000#32 _ _ _) _) _ (ix2 k j) - broadcastTo S64x1024 c _ (ix2 k j))) * broadcastTo S64x1024 w _ (ix2 k j)) zero
      * broadcastTo S64x1024 (k0_pay2 (F := Ideal) n) _ (ix2 k j) = _
  rw [bcast_row64, cast_row, bcast_col64, bcast_col64, bcast_row64, colMask_apply]
  exact congrArg (fun M => max (one - max (M - c (ix2 k 0)) (-(M - c (ix2 k 0))) * w (ix2 k 0)) zero * valid n j.val)
    ((sum_rows _ _ _ _ j).trans (Finset.sum_congr rfl fun l _ => maskedBlock_apply n x j l))

/-- The column-degree histogram row the body stores second, bin k: the soft histogram of the masked block's column sums. -/
theorem histOut_row (n : BitVec 32) (x : Vec Ideal S1x1024x1024 .f32) (c w : Vec Ideal S64x1 .f32) (k : Fin 64) :
    k0_pay1 (F := Ideal) (k0_pay2 (F := Ideal) n) w (k0_pay5 (F := Ideal) n x) (k0_pay6 (F := Ideal) c) (ix3 0 0 k)
      = bin n c w (fun j => ∑ i : Fin 1024, x (ix3 0 i j) * valid n i.val * valid n j.val) k := by
  refine (histRow_apply _ _ _ _ k).trans ?_
  unfold bin weight
  refine Finset.sum_congr rfl fun j _ => ?_
  rw [colSums_apply, centers_apply, colMask_apply]
  simp only [maskedBlock_apply]

end Cert.KernelIdeal.Body

end
-- ==== Proof.KernelBlocks.lean ====
/-
  The pipeline's windows read by coordinates: at grid point t the adjacency window holds graph t's
  [1024, 1024] slab, the two bin-parameter windows hold their whole arrays, and each output window's block
  is row t of its [128, 1, 64] array; the output blocks of the 128 points cover their arrays.
-/
import proofs.«400375_j15135464751755_1_alg».proof.Proof.Gen.KernelIdeal.Frame
import Idealize.ShloMosaic.Lib.ValueIdx
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- Grid point t is graph number t. -/
def graphOf (a : (pcfg0 (F := F)).Adm) (t : Fin (cfg0 a).N) : Fin 128 :=
  ⟨t.val, by have h := t.isLt; have hN : (cfg0 a).N = 128 := N_0; omega⟩

theorem graphOf_val (a : (pcfg0 (F := F)).Adm) (t : Fin (cfg0 a).N) : (graphOf a t).val = t.val := rfl

/-! ### The index maps over the grid -/

theorem idx0 : ∀ t : Fin grid0.N, cc0_transform_0 (grid0.coords t) = ![t.val, 0, 0] := by decide +kernel
theorem idx1 : ∀ t : Fin grid0.N, cc0_transform_1 (grid0.coords t) = ![0, 0] := by decide +kernel
theorem idx2 : ∀ t : Fin grid0.N, cc0_transform_2 (grid0.coords t) = ![0, 0] := by decide +kernel
theorem idx3 : ∀ t : Fin grid0.N, cc0_transform_3 (grid0.coords t) = ![t.val, 0, 0] := by decide +kernel
theorem idx4 : ∀ t : Fin grid0.N, cc0_transform_4 (grid0.coords t) = ![t.val, 0, 0] := by decide +kernel

/-- The block index of each window at point t, whatever the prefetched table holds. -/
theorem index0 (a : (pcfg0 (F := F)).Adm) (t : Fin (cfg0 a).N) : ((cfg0 a).win 0).index t = ![t.val, 0, 0] := idx0 t
theorem index1 (a : (pcfg0 (F := F)).Adm) (t : Fin (cfg0 a).N) : ((cfg0 a).win 1).index t = ![0, 0] := idx1 t
theorem index2 (a : (pcfg0 (F := F)).Adm) (t : Fin (cfg0 a).N) : ((cfg0 a).win 2).index t = ![0, 0] := idx2 t
theorem index3 (a : (pcfg0 (F := F)).Adm) (t : Fin (cfg0 a).N) : ((cfg0 a).win 3).index t = ![t.val, 0, 0] := idx3 t
theorem index4 (a : (pcfg0 (F := F)).Adm) (t : Fin (cfg0 a).N) : ((cfg0 a).win 4).index t = ![t.val, 0, 0] := idx4 t

/-- The adjacency window's block at point t, read at (0, i, j), is the array at (t, i, j). -/
theorem read_adj (a : (pcfg0 (F := F)).Adm) (t : Fin (cfg0 a).N) (X : S128x1024x1024.Idx → Elt F .f32) (i j : Fin 1024) :
    (((cfg0 a).win 0).blk t).view.read (Elt F) X (ix3 0 i j) = X (ix3 (graphOf a t) i j) := by
  refine (View.read_apply (v := (((cfg0 a).win 0).blk t).view) (Val := Elt F) X (ix3 0 i j)).trans ?_
  show X _ = X _
  congr 1
  funext d
  apply Fin.ext
  -- on each axis the element sits at block index × block size + its own coordinate
  refine (Pipeline.Window.rect_emb_val ((cfg0 a).win 0) t (ix3 0 i j) d).trans ?_
  rw [index0 a t]
  match d with
  | ⟨0, _⟩ => show t.val * 1 + 0 = t.val; omega
  | ⟨1, _⟩ => show 0 * 1024 + i.val = i.val; omega
  | ⟨2, _⟩ => show 0 * 1024 + j.val = j.val; omega

/-- The bin-center and bin-width windows' blocks are their whole arrays. -/
theorem read_ctr (a : (pcfg0 (F := F)).Adm) (t : Fin (cfg0 a).N) (X : S64x1.Idx → Elt F .f32) :
    (((cfg0 a).win 1).blk t).view.read (Elt F) X = X := by
  funext y
  refine (View.read_apply (v := (((cfg0 a).win 1).blk t).view) (Val := Elt F) X y).trans ?_
  show X _ = X _
  congr 1
  funext d
  apply Fin.ext
  refine (Pipeline.Window.rect_emb_val ((cfg0 a).win 1) t y d).trans ?_
  rw [index1 a t]
  match d with
  | ⟨0, h⟩ => show 0 * 64 + (y ⟨0, h⟩).val = (y ⟨0, h⟩).val; omega
  | ⟨1, h⟩ => show 0 * 1 + (y ⟨1, h⟩).val = (y ⟨1, h⟩).val; omega
theorem read_wid (a : (pcfg0 (F := F)).Adm) (t : Fin (cfg0 a).N) (X : S64x1.Idx → Elt F .f32) :
    (((cfg0 a).win 2).blk t).view.read (Elt F) X = X := by
  funext y
  refine (View.read_apply (v := (((cfg0 a).win 2).blk t).view) (Val := Elt F) X y).trans ?_
  show X _ = X _
  congr 1
  funext d
  apply Fin.ext
  refine (Pipeline.Window.rect_emb_val ((cfg0 a).win 2) t y d).trans ?_
  rw [index2 a t]
  match d with
  | ⟨0, h⟩ => show 0 * 64 + (y ⟨0, h⟩).val = (y ⟨0, h⟩).val; omega
  | ⟨1, h⟩ => show 0 * 1 + (y ⟨1, h⟩).val = (y ⟨1, h⟩).val; omega

/-- Each output window's block at point t, read at (0, 0, k), is the array at (t, 0, k). -/
theorem read_out3 (a : (pcfg0 (F := F)).Adm) (t : Fin (cfg0 a).N) (X : S128x1x64.Idx → Elt F .f32) (k : Fin 64) :
    (((cfg0 a).win 3).blk t).view.read (Elt F) X (ix3 0 0 k) = X (ix3 (graphOf a t) 0 k) := by
  refine (View.read_apply (v := (((cfg0 a).win 3).blk t).view) (Val := Elt F) X (ix3 0 0 k)).trans ?_
  show X _ = X _
  congr 1
  funext d
  apply Fin.ext
  refine (Pipeline.Window.rect_emb_val ((cfg0 a).win 3) t (ix3 0 0 k) d).trans ?_
  rw [index3 a t]
  match d with
  | ⟨0, _⟩ => show t.val * 1 + 0 = t.val; omega
  | ⟨1, _⟩ => show 0 * 1 + 0 = 0; omega
  | ⟨2, _⟩ => show 0 * 64 + k.val = k.val; omega
theorem read_out4 (a : (pcfg0 (F := F)).Adm) (t : Fin (cfg0 a).N) (X : S128x1x64.Idx → Elt F .f32) (k : Fin 64) :
    (((cfg0 a).win 4).blk t).view.read (Elt F) X (ix3 0 0 k) = X (ix3 (graphOf a t) 0 k) := by
  refine (View.read_apply (v := (((cfg0 a).win 4).blk t).view) (Val := Elt F) X (ix3 0 0 k)).trans ?_
  show X _ = X _
  congr 1
  funext d
  apply Fin.ext
  refine (Pipeline.Window.rect_emb_val ((cfg0 a).win 4) t (ix3 0 0 k) d).trans ?_
  rw [index4 a t]
  match d with
  | ⟨0, _⟩ => show t.val * 1 + 0 = t.val; omega
  | ⟨1, _⟩ => show 0 * 1 + 0 = 0; omega
  | ⟨2, _⟩ => show 0 * 64 + k.val = k.val; omega

/-- The point whose output block holds row (i 0) of the array. -/
def pointOf (a : (pcfg0 (F := F)).Adm) (i : S128x1x64.Idx) : Fin (cfg0 a).N :=
  ⟨(i 0).val, by have h : (i 0).val < 128 := (i 0).isLt; have hN : (cfg0 a).N = 128 := N_0; omega⟩

/-- Every index of an output array lies in the block some point writes back. -/
theorem cover3 (a : (pcfg0 (F := F)).Adm) (i : S128x1x64.Idx) :
    ∃ t : Fin (cfg0 a).N, ((cfg0 a).win 3).flush t = true ∧ i ∈ (((cfg0 a).win 3).blk t).view.set := by
  refine ⟨pointOf a i, flush0_3 a _, ?_⟩
  -- the block's index set is its rectangle: offsets block index × block size, extents the block's sizes
  have h : (((cfg0 a).win 3).blk (pointOf a i)).view.set = (((cfg0 a).win 3).rect (pointOf a i)).set :=
    View.set_slice_whole main_v0_0 _
  rw [h]
  refine Rect.mem_set_unit.mpr fun d => ?_
  rw [index3 a (pointOf a i)]
  have h1 : (i 1).val < 1 := (i 1).isLt
  have h2 : (i 2).val < 64 := (i 2).isLt
  match d with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 64 ≤ (i 2).val ∧ (i 2).val < 0 * 64 + 64; omega
theorem cover4 (a : (pcfg0 (F := F)).Adm) (i : S128x1x64.Idx) :
    ∃ t : Fin (cfg0 a).N, ((cfg0 a).win 4).flush t = true ∧ i ∈ (((cfg0 a).win 4).blk t).view.set := by
  refine ⟨pointOf a i, flush0_4 a _, ?_⟩
  -- the block's index set is its rectangle: offsets block index × block size, extents the block's sizes
  have h : (((cfg0 a).win 4).blk (pointOf a i)).view.set = (((cfg0 a).win 4).rect (pointOf a i)).set :=
    View.set_slice_whole main_v0_1 _
  rw [h]
  refine Rect.mem_set_unit.mpr fun d => ?_
  rw [index4 a (pointOf a i)]
  have h1 : (i 1).val < 1 := (i 1).isLt
  have h2 : (i 2).val < 64 := (i 2).isLt
  match d with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 64 ≤ (i 2).val ∧ (i 2).val < 0 * 64 + 64; omega

end Cert.KernelIdeal.Blocks

end
-- ==== Proof.KernelValue.lean ====
/-
  The kernel's result: what the body leaves in the two output blocks at each grid point is the pair of
  soft-histogram rows of graph t; the 128 blocks tile the two [128, 1, 64] arrays; the host lines after
  the call reshape and stack them.
-/
import proofs.«400375_j15135464751755_1_alg».proof.Proof.Gen.KernelIdeal.Frame
import proofs.«400375_j15135464751755_1_alg».proof.Proof.KernelBody
import proofs.«400375_j15135464751755_1_alg».proof.Proof.KernelBlocks
import proofs.«400375_j15135464751755_1_alg».proof.Proof.Spec
import Idealize.ShloMosaic.Lib.ValueIdx
import Idealize.ShloMosaic.Lib.Pipeline.Value
import Idealize.ShloMosaic.Lib.StableHlo.Run
import Idealize.ShloMosaic.Lib.Tactic

set_option maxRecDepth 16384

noncomputable section

open scoped BigOperators

namespace Cert.KernelIdeal.KValue

open Cert.KernelIdeal Cert.KernelIdeal.Gen Cert.KernelIdeal.Body Cert.KernelIdeal.Blocks Cert.DegreeHist
open Idealize.ShloMosaic Idealize.ShloMosaic.TcCoe Idealize.ShloMosaic.ValueIdx Idealize.SL.Sem
open Idealize.ShloMosaic.Pipeline (Dat)

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- The node count the body reads at grid coordinates i: the word of the table at offset i. -/
def count (c : Dev nD) (i : grid0.Coords) (xt0 : TbBuf0 (F := F) c tbM0_0) : Elt F .i32 :=
  View.readAt (Elt F) tbM0_0.view (Rect.unit (s := S128) (k0_off1 i) S1.size (k0_off1_inb i)).toLoadRect xt0
    (Shape.Idx.first (numel1_S1.symm ▸ Nat.one_pos))

/-- The first output block after the body: the one covering store's value, over the loaded blocks. -/
theorem out3_eq (c : Dev nD) (i : grid0.Coords) (arg2 : Memref sig .tc .vmem S1x1024x1024 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S1x1x64 .f32) (harg5 : arg5.IsWhole) (arg6 : Memref sig .tc .vmem S1x1x64 .f32) (harg6 : arg6.IsWhole)
    (x0 : Vec F S1x1024x1024 .f32) (x1 : Vec F S64x1 .f32) (x2 : Vec F S64x1 .f32) (xt0 : TbBuf0 (F := F) c tbM0_0) :
    out0_A_3 c i arg2 harg2 arg3 harg3 arg4 harg4 arg5 harg5 arg6 harg6 x0 x1 x2 xt0 = k0_pay4 (count c i xt0) x0 x1 x2 := by
  unfold out0_A_3
  rw [View.read_writes_eq_canon _ _ _ (cover0_A_3 c i arg2 harg2 arg3 harg3 arg4 harg4 arg5 harg5 arg6 harg6 x0 x1 x2 xt0)]
  unfold kernelRun0_A
  dsimp only
  sl_unfold_words
  rw [View.canon_unit_zero hz3]
  simp only [View.readAt_eq_ld, harg2.read_unread, harg3.read_unread, harg4.read_unread, View.ld_unit_zero (S := S1x1024x1024) hz3, View.ld_unit_zero (S := S64x1) hz2]
  rfl

/-- The second output block after the body. -/
theorem out4_eq (c : Dev nD) (i : grid0.Coords) (arg2 : Memref sig .tc .vmem S1x1024x1024 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S1x1x64 .f32) (harg5 : arg5.IsWhole) (arg6 : Memref sig .tc .vmem S1x1x64 .f32) (harg6 : arg6.IsWhole)
    (x0 : Vec F S1x1024x1024 .f32) (x1 : Vec F S64x1 .f32) (x2 : Vec F S64x1 .f32) (xt0 : TbBuf0 (F := F) c tbM0_0) :
    out0_A_4 c i arg2 harg2 arg3 harg3 arg4 harg4 arg5 harg5 arg6 harg6 x0 x1 x2 xt0
      = k0_pay1 (k0_pay2 (count c i xt0)) x2 (k0_pay5 (count c i xt0) x0) (k0_pay6 x1) := by
  unfold out0_A_4
  rw [View.read_writes_eq_canon _ _ _ (cover0_A_4 c i arg2 harg2 arg3 harg3 arg4 harg4 arg5 harg5 arg6 harg6 x0 x1 x2 xt0)]
  unfold kernelRun0_A
  dsimp only
  sl_unfold_words
  rw [View.canon_unit_zero hz3]
  simp only [View.readAt_eq_ld, harg2.read_unread, harg3.read_unread, harg4.read_unread, View.ld_unit_zero (S := S1x1024x1024) hz3, View.ld_unit_zero (S := S64x1) hz2]
  rfl

end Pieces

section Value

variable (m : (ℓ : Loc nD τ sig) → Buf (Elt Ideal) ℓ) (ρ : Dev nD → PrngReg)

/-- The four argument arrays at launch. -/
abbrev adj (c : Dev nD) : SAdj.Idx → EReal := m ((c : Thread nD τ).loc main_arg0)
abbrev num (c : Dev nD) : SNum.Idx → BitVec 32 := m ((c : Thread nD τ).loc main_arg1)
abbrev ctr (c : Dev nD) : SBin.Idx → EReal := m ((c : Thread nD τ).loc main_arg2)
abbrev wid (c : Dev nD) : SBin.Idx → EReal := m ((c : Thread nD τ).loc main_arg3)

/-- The three input blocks at a point, at their literal types. -/
abbrev blkAdj (hO : Ok m) (c : Dev nD) (t : Fin (cfgM m hO).N) : Vec Ideal S1x1024x1024 .f32 := iblk m hO c 0 t
abbrev blkCtr (hO : Ok m) (c : Dev nD) (t : Fin (cfgM m hO).N) : Vec Ideal S64x1 .f32 := iblk m hO c 1 t
abbrev blkWid (hO : Ok m) (c : Dev nD) (t : Fin (cfgM m hO).N) : Vec Ideal S64x1 .f32 := iblk m hO c 2 t

theorem blkAdj_apply (hO : Ok m) (c : Dev nD) (t : Fin (cfgM m hO).N) (i j : Fin 1024) :
    blkAdj m hO c t (ix3 0 i j) = adj m c (ix3 (graphOf (adm m hO) t) i j) :=
  read_adj (adm m hO) t (V m c main_arg0) i j
theorem blkCtr_eq (hO : Ok m) (c : Dev nD) (t : Fin (cfgM m hO).N) : blkCtr m hO c t = ctr m c :=
  read_ctr (adm m hO) t (V m c main_arg2)
theorem blkWid_eq (hO : Ok m) (c : Dev nD) (t : Fin (cfgM m hO).N) : blkWid m hO c t = wid m c :=
  read_wid (adm m hO) t (V m c main_arg3)

/-- The one grid axis' coordinate of point t is t. -/
theorem coords_val : ∀ t : Fin grid0.N, (grid0.coords t 0).val = t.val := by decide +kernel

/-- The node count the body reads at point t is graph t's entry of the count array. -/
theorem count_tbl (hO : Ok m) (c : Dev nD) (t : Fin (cfgM m hO).N) :
    count c (grid0.coords t) (tbl m 0) = num m c (ix1 (graphOf (adm m hO) t)) := by
  obtain rfl : c = 0 := Subsingleton.elim _ _
  unfold count
  show m (((0 : Dev nD) : Thread nD τ).loc main_arg1) _ = m (((0 : Dev nD) : Thread nD τ).loc main_arg1) _
  refine congrArg (m (((0 : Dev nD) : Thread nD τ).loc main_arg1)) ?_
  funext a
  apply Fin.ext
  fin_cases a
  show k0_off1 (grid0.coords t) 0 + 1 * (Shape.Idx.first (s := S1) (numel1_S1.symm ▸ Nat.one_pos) (0 : Fin 1)).val = t.val
  have h0 : (Shape.Idx.first (s := S1) (numel1_S1.symm ▸ Nat.one_pos) (0 : Fin 1)).val = 0 := by
    have := (Shape.Idx.first (s := S1) (numel1_S1.symm ▸ Nat.one_pos) (0 : Fin 1)).isLt
    have e : S1.size (0 : Fin 1) = 1 := by decide
    omega
  rw [h0, k0_off1_eq]
  show (grid0.coords t 0).val + 1 * 0 = t.val
  rw [coords_val]
  omega

/-- What the body leaves in the first output block at point t, bin k: graph t's row-degree histogram. -/
theorem outs3_apply (hO : Ok m) (c : Dev nD) (t : Fin (cfgM m hO).N) (k : Fin 64) :
    (outsAt0 m hO c t).1 (ix3 0 0 k)
      = histIn (adj m c) (num m c) (ctr m c) (wid m c) (ix2 (graphOf (adm m hO) t) k) := by
  unfold outsAt0
  dsimp only
  refine (congrFun (out3_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (blkAdj m hO c t) (blkCtr m hO c t) (blkWid m hO c t) (tbl m 0)) (ix3 0 0 k)).trans ?_
  refine (histIn_row (count c (grid0.coords t) (tbl m 0)) (blkAdj m hO c t) (blkCtr m hO c t) (blkWid m hO c t) k).trans ?_
  rw [histIn_apply, count_tbl, blkCtr_eq, blkWid_eq]
  unfold rowDeg masked
  simp only [blkAdj_apply]

/-- What the body leaves in the second output block at point t, bin k: graph t's column-degree histogram. -/
theorem outs4_apply (hO : Ok m) (c : Dev nD) (t : Fin (cfgM m hO).N) (k : Fin 64) :
    (outsAt0 m hO c t).2 (ix3 0 0 k)
      = histOut (adj m c) (num m c) (ctr m c) (wid m c) (ix2 (graphOf (adm m hO) t) k) := by
  unfold outsAt0
  dsimp only
  refine (congrFun (out4_eq c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (blkAdj m hO c t) (blkCtr m hO c t) (blkWid m hO c t) (tbl m 0)) (ix3 0 0 k)).trans ?_
  refine (histOut_row (count c (grid0.coords t) (tbl m 0)) (blkAdj m hO c t) (blkCtr m hO c t) (blkWid m hO c t) k).trans ?_
  rw [histOut_apply, count_tbl, blkCtr_eq, blkWid_eq]
  unfold colDeg masked
  simp only [blkAdj_apply]

end Value

section Arrays

variable (m : (ℓ : Loc nD τ sig) → Buf (Elt Ideal) ℓ) (ρ : Dev nD → PrngReg)

/-- The two [128, 1, 64] output arrays after the run: row b holds graph b's histogram. -/
def arr3 (c : Dev nD) : S128x1x64.Idx → EReal :=
  fun i => histIn (adj m c) (num m c) (ctr m c) (wid m c) (ix2 (⟨(i 0).val, (i 0).isLt⟩ : Fin 128) (⟨(i 2).val, (i 2).isLt⟩ : Fin 64))
def arr4 (c : Dev nD) : S128x1x64.Idx → EReal :=
  fun i => histOut (adj m c) (num m c) (ctr m c) (wid m c) (ix2 (⟨(i 0).val, (i 0).isLt⟩ : Fin 128) (⟨(i 2).val, (i 2).isLt⟩ : Fin 64))

theorem arr3_apply (c : Dev nD) (b : Fin 128) (k : Fin 64) :
    arr3 m c (ix3 b 0 k) = histIn (adj m c) (num m c) (ctr m c) (wid m c) (ix2 b k) := rfl
theorem arr4_apply (c : Dev nD) (b : Fin 128) (k : Fin 64) :
    arr4 m c (ix3 b 0 k) = histOut (adj m c) (num m c) (ctr m c) (wid m c) (ix2 b k) := rfl

/-- An index of a [1, 1, 64] block is (0, 0, k). -/
theorem eq_blockIdx (y : S1x1x64.Idx) : y = ix3 0 0 (y 2) := by
  funext a
  match a with
  | ⟨0, _⟩ => exact Fin.ext (by have h := (y 0).isLt; have e : S1x1x64.size 0 = 1 := rfl; show (y 0).val = 0; omega)
  | ⟨1, _⟩ => exact Fin.ext (by have h := (y 1).isLt; have e : S1x1x64.size 1 = 1 := rfl; show (y 1).val = 0; omega)
  | ⟨2, _⟩ => rfl

theorem flushed3_at (hO : Ok m) (c : Dev nD) (t : Fin (cfgM m hO).N) (y : S1x1x64.Idx) :
    (outsAt0 m hO c t).1 y = (((cfgM m hO).win 3).blk t).view.read (Elt Ideal) (arr3 m c) y := by
  obtain ⟨k, rfl⟩ : ∃ k : Fin 64, y = ix3 0 0 k := ⟨y 2, eq_blockIdx y⟩
  exact (outs3_apply m hO c t k).trans ((read_out3 (adm m hO) t (arr3 m c) k).trans (arr3_apply m c _ k)).symm
theorem flushed4_at (hO : Ok m) (c : Dev nD) (t : Fin (cfgM m hO).N) (y : S1x1x64.Idx) :
    (outsAt0 m hO c t).2 y = (((cfgM m hO).win 4).blk t).view.read (Elt Ideal) (arr4 m c) y := by
  obtain ⟨k, rfl⟩ : ∃ k : Fin 64, y = ix3 0 0 k := ⟨y 2, eq_blockIdx y⟩
  exact (outs4_apply m hO c t k).trans ((read_out4 (adm m hO) t (arr4 m c) k).trans (arr4_apply m c _ k)).symm

/-- What each point writes back is its block of the array function. -/
theorem flushed3_eq (hO : Ok m) (c : Dev nD) (t : Fin (cfgM m hO).N) (_ : ((cfgM m hO).win 3).flush t = true) :
    (dats m hO 0 c).flushed 3 t = (((cfgM m hO).win 3).blk t).view.read (Elt Ideal) (arr3 m c) := by
  show ((cfgM m hO).win 3).cut ((cfgM m hO).grid.coords t) ((dats m hO 0 c).after 3 t) = _
  rw [after0_3]
  funext y
  exact flushed3_at m hO c t y
theorem flushed4_eq (hO : Ok m) (c : Dev nD) (t : Fin (cfgM m hO).N) (_ : ((cfgM m hO).win 4).flush t = true) :
    (dats m hO 0 c).flushed 4 t = (((cfgM m hO).win 4).blk t).view.read (Elt Ideal) (arr4 m c) := by
  show ((cfgM m hO).win 4).cut ((cfgM m hO).grid.coords t) ((dats m hO 0 c).after 4 t) = _
  rw [after0_4]
  funext y
  exact flushed4_at m hO c t y

/-- The blocks of the 128 points tile each output array, so the arrays end as the array functions. -/
theorem final3 (hO : Ok m) (c : Dev nD) : (dats m hO 0 c).arrAt 3 (cfgM m hO).N = arr3 m c :=
  (dats m hO 0 c).arrAt_eq_of_cover 3 (arr3 m c) (flushed3_eq m hO c) (cover3 (adm m hO))
theorem final4 (hO : Ok m) (c : Dev nD) : (dats m hO 0 c).arrAt 4 (cfgM m hO).N = arr4 m c :=
  (dats m hO 0 c).arrAt_eq_of_cover 4 (arr4 m c) (flushed4_eq m hO c) (cover4 (adm m hO))

/-- A [128, 1, 64] array viewed as [128, 64]. -/
theorem view2d {α : Type} (X : S128x1x64.Idx → α) (h : S128x1x64.ShapeCasts S128x64) (b : Fin 128) (k : Fin 64) :
    shapeCast S128x64 X h (ix2 b k) = X (ix3 b 0 k) :=
  shapeCast_apply X h (ix2 b k) (ix3 b 0 k) (by
    rw [Shape.rowMajor_val_three, Shape.rowMajor_val_two]
    show (b.val * 1 + 0) * 64 + k.val = b.val * 64 + k.val
    omega)

/-- Stacking is a function of the two stacked arrays. -/
theorem stack_congr (hb : S128x64.BroadcastsInDim S1x128x64 (![1, 2] : Fin 2 → Fin S1x128x64.rank))
    (hc : Shape.Concatenates [S1x128x64, S1x128x64] S2x128x64 0) (p q p' q' : S128x64.Idx → EReal) (hp : p = p') (hq : q = q') :
    concatenate S2x128x64 0 [⟨S1x128x64, broadcastInDim S1x128x64 ![1, 2] hb p⟩, ⟨S1x128x64, broadcastInDim S1x128x64 ![1, 2] hb q⟩] hc
      = stack p' q' := by
  subst hp hq; rfl

/-- The host lines after the call: each [128, 1, 64] array viewed [128, 64], the two stacked. -/
theorem tail_eq (hO : Ok m) (c : Dev nD) :
    Pipeline.afterTail pcfgs (fun _ => adm m hO) (dats m hO) 0 (V0 m) [hostOps1] c main_v5
      = result (adj m c) (num m c) (ctr m c) (wid m c) := by
  have e3 := (Pipeline.withArrays_arr spec0 winFacts0.arr_inj c (V0 m c) (fun w => (dats m hO 0 c).arrAt w (cfgM m hO).N) 3).trans (final3 m hO c)
  have e4 := (Pipeline.withArrays_arr spec0 winFacts0.arr_inj c (V0 m c) (fun w => (dats m hO 0 c).arrAt w (cfgM m hO).N) 4).trans (final4 m hO c)
  unfold Pipeline.afterTail
  show StableHlo.after hostOps1 _ (Proc.devRef .tc main_v5) = _
  after_results
  unfold result
  refine stack_congr _ _ _ _ _ _ ?_ ?_
  · funext i
    obtain ⟨b, k, rfl⟩ : ∃ (b : Fin 128) (k : Fin 64), i = ix2 b k := ⟨i 0, i 1, eq_ix2 i⟩
    refine (view2d _ _ b k).trans ?_
    exact (congrFun e3 (ix3 b 0 k)).trans (arr3_apply m c b k)
  · funext i
    obtain ⟨b, k, rfl⟩ : ∃ (b : Fin 128) (k : Fin 64), i = ix2 b k := ⟨i 0, i 1, eq_ix2 i⟩
    refine (view2d _ _ b k).trans ?_
    exact (congrFun e4 (ix3 b 0 k)).trans (arr4_apply m c b k)

/-- THE KERNEL'S RUN with its result named: the stacked histograms of the launch arrays; the arguments unchanged. -/
theorem run (hO : Ok m) : θ_run defs (onTc (τ := τ) (main (F := Ideal))) ⟨m, fun _ => 0, ρ⟩ (fun r => ∀ c : Dev nD,
      r.2.mem ((c.tc : Thread nD τ).loc main_v5) = result (adj m c) (num m c) (ctr m c) (wid m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v5 (by decide : main_v5 ∈ Pipeline.restRefs sig spec0)).trans (tail_eq m hO c),
      ((h c).1 0).trans (((dats m hO 0 c).arrAt_in 0 rfl _).trans ((A_eq m hO c 0).trans (V_main_arg0 m c))),
      (((h c).2 main_arg1 (by decide : main_arg1 ∈ Pipeline.restRefs sig spec0)).trans (W_main_arg1 m hO (dats m hO) c)),
      ((h c).1 1).trans (((dats m hO 0 c).arrAt_in 1 rfl _).trans ((A_eq m hO c 1).trans (V_main_arg2 m c))),
      ((h c).1 2).trans (((dats m hO 0 c).arrAt_in 2 rfl _).trans ((A_eq m hO c 2).trans (V_main_arg3 m c)))⟩)
    (run_main m ρ hO)

end Arrays

end Cert.KernelIdeal.KValue

end
-- ==== Proof.RefValue.lean ====
/-
  The reference's result is the stacked pair of soft histograms: its composed term read one operation at a time.
-/
import proofs.«400375_j15135464751755_1_alg».proof.Proof.Gen.ReferenceIdeal.Read
import proofs.«400375_j15135464751755_1_alg».proof.Proof.Spec

noncomputable section

open scoped BigOperators

namespace Cert.ReferenceIdeal.RefValue

open Cert.ReferenceIdeal Cert.ReferenceIdeal.Gen Cert.ReferenceIdeal.Read Cert.DegreeHist
open Idealize.ShloMosaic Idealize.ShloMosaic.ValueIdx

/-! ### Indices by coordinates -/

theorem idx_num (b : Fin 128) (j : Fin 1024) : idx_main_v2 (idx_main_v4 (ix2 b j)) = ix1 b :=
  funext fun a => Fin.ext (by match a with | ⟨0, _⟩ => rfl)

theorem idx_rowMask (b : Fin 128) (i j : Fin 1024) : idx_main_v7 (idx_main_v8 (ix3 b i j)) = ix2 b i :=
  funext fun a => Fin.ext (by match a with | ⟨0, _⟩ => rfl | ⟨1, _⟩ => rfl)

theorem idx_colMask (b : Fin 128) (i j : Fin 1024) : idx_main_v10 (idx_main_v11 (ix3 b i j)) = ix2 b j :=
  funext fun a => Fin.ext (by match a with | ⟨0, _⟩ => rfl | ⟨1, _⟩ => rfl)

theorem idx_rowSum (b : Fin 128) (i j : Fin 1024) : idx_main_v13 (ix2 b i) j = ix3 b i j :=
  funext fun a => Fin.ext (by match a with | ⟨0, _⟩ => rfl | ⟨1, _⟩ => rfl | ⟨2, _⟩ => rfl)

theorem idx_colSum (b : Fin 128) (i j : Fin 1024) : idx_main_v30 (ix2 b j) i = ix3 b i j :=
  funext fun a => Fin.ext (by match a with | ⟨0, _⟩ => rfl | ⟨1, _⟩ => rfl | ⟨2, _⟩ => rfl)

/-! ### The mask, the masked adjacency and the two degree vectors -/

/-- The mask at (b, j) is the validity factor of node j in graph b. -/
theorem v6_at (x1 : (⟨S128, .i32⟩ : BufTy).Contents (Elt Ideal)) (b : Fin 128) (j : Fin 1024) :
    val_main_v6 (F := Ideal) x1 (ix2 b j) = valid (x1 (ix1 b)) j.val := by
  rw [val_main_v6_apply, val_main_v5_apply, val_main_v3_apply, val_main_v1_apply, val_main_v0_apply,
    val_main_v4_apply, val_main_v2_apply, idx_num]
  rfl

/-- The doubly masked adjacency at (b, i, j). -/
theorem v12_at (x0 : (⟨S128x1024x1024, .f32⟩ : BufTy).Contents (Elt Ideal)) (x1 : (⟨S128, .i32⟩ : BufTy).Contents (Elt Ideal))
    (b : Fin 128) (i j : Fin 1024) :
    val_main_v12 (F := Ideal) x0 x1 (ix3 b i j) = masked x0 (x1 (ix1 b)) b i j := by
  rw [val_main_v12_apply, val_main_v9_apply, val_main_v8_apply, val_main_v7_apply, val_main_v11_apply,
    val_main_v10_apply, idx_rowMask, idx_colMask, v6_at, v6_at]
  rfl

/-- The row sums of the masked adjacency. -/
theorem v13_at (x0 : (⟨S128x1024x1024, .f32⟩ : BufTy).Contents (Elt Ideal)) (x1 : (⟨S128, .i32⟩ : BufTy).Contents (Elt Ideal))
    (b : Fin 128) (i : Fin 1024) :
    val_main_v13 (F := Ideal) x0 x1 (ix2 b i) = rowDeg x0 (x1 (ix1 b)) b i := by
  rw [val_main_v13_apply, val_main_cst_apply, Ideal.ofBits_def, Ideal.ofBits_zero_f32, zero_add]
  unfold rowDeg
  refine Finset.sum_congr rfl fun j _ => ?_
  rw [idx_rowSum, v12_at]

/-- The column sums of the masked adjacency. -/
theorem v30_at (x0 : (⟨S128x1024x1024, .f32⟩ : BufTy).Contents (Elt Ideal)) (x1 : (⟨S128, .i32⟩ : BufTy).Contents (Elt Ideal))
    (b : Fin 128) (j : Fin 1024) :
    val_main_v30 (F := Ideal) x0 x1 (ix2 b j) = colDeg x0 (x1 (ix1 b)) b j := by
  rw [val_main_v30_apply, val_main_cst_2_apply, Ideal.ofBits_def, Ideal.ofBits_zero_f32, zero_add]
  unfold colDeg
  refine Finset.sum_congr rfl fun i _ => ?_
  rw [idx_colSum, v12_at]

/-! ### One node's weight in one bin -/

theorem idx_deg (b : Fin 128) (k : Fin 64) (j : Fin 1024) : idx_main_v14 (idx_main_v16 (ix3 b k j)) = ix2 b j :=
  funext fun a => Fin.ext (by match a with | ⟨0, _⟩ => rfl | ⟨1, _⟩ => rfl)

theorem idx_ctr (b : Fin 128) (k : Fin 64) (j : Fin 1024) : idx_main_v15 (idx_main_v17 (ix3 b k j)) = ix2 k (0 : Fin 1) :=
  funext fun a => Fin.ext (by match a with | ⟨0, _⟩ => rfl | ⟨1, _⟩ => rfl)

theorem idx_wid (b : Fin 128) (k : Fin 64) (j : Fin 1024) : idx_main_v20 (idx_main_v21 (ix3 b k j)) = ix2 k (0 : Fin 1) :=
  funext fun a => Fin.ext (by match a with | ⟨0, _⟩ => rfl | ⟨1, _⟩ => rfl)

theorem idx_nodeMask (b : Fin 128) (k : Fin 64) (j : Fin 1024) : idx_main_v26 (idx_main_v27 (ix3 b k j)) = ix2 b j :=
  funext fun a => Fin.ext (by match a with | ⟨0, _⟩ => rfl | ⟨1, _⟩ => rfl)

theorem idx_binSum (b : Fin 128) (k : Fin 64) (j : Fin 1024) : idx_main_v29 (ix2 b k) j = ix3 b k j :=
  funext fun a => Fin.ext (by match a with | ⟨0, _⟩ => rfl | ⟨1, _⟩ => rfl | ⟨2, _⟩ => rfl)

/-- Node j's weight in bin k of graph b, from the row degrees. -/
theorem v28_at (x0 : (⟨S128x1024x1024, .f32⟩ : BufTy).Contents (Elt Ideal)) (x1 : (⟨S128, .i32⟩ : BufTy).Contents (Elt Ideal))
    (x2 x3 : (⟨S64x1, .f32⟩ : BufTy).Contents (Elt Ideal)) (b : Fin 128) (k : Fin 64) (j : Fin 1024) :
    val_main_v28 (F := Ideal) x0 x1 x2 x3 (ix3 b k j)
      = weight (x1 (ix1 b)) x2 x3 (rowDeg x0 (x1 (ix1 b)) b) k j := by
  rw [val_main_v28_apply, val_main_v25_apply, val_main_v24_apply, val_main_v23_apply, val_main_cst_0_apply,
    val_main_v22_apply, val_main_v19_apply, val_main_v18_apply, val_main_v16_apply, val_main_v14_apply,
    val_main_v17_apply, val_main_v15_apply, val_main_v21_apply, val_main_v20_apply,
    val_main_call0_v0_apply, val_main_call0_cst_apply, val_main_v27_apply, val_main_v26_apply,
    idx_deg, idx_ctr, idx_wid, idx_nodeMask, v13_at, v6_at]
  rfl

/-! ### The same weight from the column degrees -/

theorem idx_deg' (b : Fin 128) (k : Fin 64) (j : Fin 1024) : idx_main_v31 (idx_main_v33 (ix3 b k j)) = ix2 b j :=
  funext fun a => Fin.ext (by match a with | ⟨0, _⟩ => rfl | ⟨1, _⟩ => rfl)

theorem idx_ctr' (b : Fin 128) (k : Fin 64) (j : Fin 1024) : idx_main_v32 (idx_main_v34 (ix3 b k j)) = ix2 k (0 : Fin 1) :=
  funext fun a => Fin.ext (by match a with | ⟨0, _⟩ => rfl | ⟨1, _⟩ => rfl)

theorem idx_wid' (b : Fin 128) (k : Fin 64) (j : Fin 1024) : idx_main_v37 (idx_main_v38 (ix3 b k j)) = ix2 k (0 : Fin 1) :=
  funext fun a => Fin.ext (by match a with | ⟨0, _⟩ => rfl | ⟨1, _⟩ => rfl)

theorem idx_nodeMask' (b : Fin 128) (k : Fin 64) (j : Fin 1024) : idx_main_v43 (idx_main_v44 (ix3 b k j)) = ix2 b j :=
  funext fun a => Fin.ext (by match a with | ⟨0, _⟩ => rfl | ⟨1, _⟩ => rfl)

theorem idx_binSum' (b : Fin 128) (k : Fin 64) (j : Fin 1024) : idx_main_v46 (ix2 b k) j = ix3 b k j :=
  funext fun a => Fin.ext (by match a with | ⟨0, _⟩ => rfl | ⟨1, _⟩ => rfl | ⟨2, _⟩ => rfl)

/-- Node j's weight in bin k of graph b, from the column degrees. -/
theorem v45_at (x0 : (⟨S128x1024x1024, .f32⟩ : BufTy).Contents (Elt Ideal)) (x1 : (⟨S128, .i32⟩ : BufTy).Contents (Elt Ideal))
    (x2 x3 : (⟨S64x1, .f32⟩ : BufTy).Contents (Elt Ideal)) (b : Fin 128) (k : Fin 64) (j : Fin 1024) :
    val_main_v45 (F := Ideal) x0 x1 x2 x3 (ix3 b k j)
      = weight (x1 (ix1 b)) x2 x3 (colDeg x0 (x1 (ix1 b)) b) k j := by
  rw [val_main_v45_apply, val_main_v42_apply, val_main_v41_apply, val_main_v40_apply, val_main_cst_3_apply,
    val_main_v39_apply, val_main_v36_apply, val_main_v35_apply, val_main_v33_apply, val_main_v31_apply,
    val_main_v34_apply, val_main_v32_apply, val_main_v38_apply, val_main_v37_apply,
    val_main_call1_v0_apply, val_main_call1_cst_apply, val_main_v44_apply, val_main_v43_apply,
    idx_deg', idx_ctr', idx_wid', idx_nodeMask', v30_at, v6_at]
  rfl

/-- The reference's row-degree histogram (its %29) is `histIn` of the arguments. -/
theorem v29_eq (x0 : (⟨S128x1024x1024, .f32⟩ : BufTy).Contents (Elt Ideal)) (x1 : (⟨S128, .i32⟩ : BufTy).Contents (Elt Ideal))
    (x2 x3 : (⟨S64x1, .f32⟩ : BufTy).Contents (Elt Ideal)) :
    val_main_v29 (F := Ideal) x0 x1 x2 x3 = histIn x0 x1 x2 x3 := by
  funext i
  obtain ⟨b, k, rfl⟩ : ∃ (b : Fin 128) (k : Fin 64), i = ix2 b k := ⟨i 0, i 1, eq_ix2 i⟩
  rw [histIn_apply, val_main_v29_apply, val_main_cst_1_apply, Ideal.ofBits_def, Ideal.ofBits_zero_f32, zero_add]
  unfold bin
  refine Finset.sum_congr rfl fun j _ => ?_
  rw [idx_binSum, v28_at]

/-- The reference's column-degree histogram (its %46) is `histOut` of the arguments. -/
theorem v46_eq (x0 : (⟨S128x1024x1024, .f32⟩ : BufTy).Contents (Elt Ideal)) (x1 : (⟨S128, .i32⟩ : BufTy).Contents (Elt Ideal))
    (x2 x3 : (⟨S64x1, .f32⟩ : BufTy).Contents (Elt Ideal)) :
    val_main_v46 (F := Ideal) x0 x1 x2 x3 = histOut x0 x1 x2 x3 := by
  funext i
  obtain ⟨b, k, rfl⟩ : ∃ (b : Fin 128) (k : Fin 64), i = ix2 b k := ⟨i 0, i 1, eq_ix2 i⟩
  rw [histOut_apply, val_main_v46_apply, val_main_cst_4_apply, Ideal.ofBits_def, Ideal.ofBits_zero_f32, zero_add]
  unfold bin
  refine Finset.sum_congr rfl fun j _ => ?_
  rw [idx_binSum', v45_at]

/-- The reference's result is `result` of the arguments. -/
theorem v49_eq (x0 : (⟨S128x1024x1024, .f32⟩ : BufTy).Contents (Elt Ideal)) (x1 : (⟨S128, .i32⟩ : BufTy).Contents (Elt Ideal))
    (x2 x3 : (⟨S64x1, .f32⟩ : BufTy).Contents (Elt Ideal)) :
    val_main_v49 (F := Ideal) x0 x1 x2 x3 = result x0 x1 x2 x3 := by
  unfold val_main_v49 val_main_v47 val_main_v48 result stack
  rw [v29_eq, v46_eq]

end Cert.ReferenceIdeal.RefValue

end
-- ==== Proof.lean ====
/-
  Degree histograms of a batch of 128 graphs.  For graph b with n_b nodes the adjacency entries of rows and
  columns at or past n_b are zeroed; the row sums and the column sums of the masked matrix are the two degree
  vectors; each is binned into 64 triangular bins, bin k collecting over the valid nodes j the weight
  max (1 - |deg j - center k| * width k) 0.  The kernel does this one graph per grid point and writes two
  [1, 1, 64] rows; the reference does it for the whole batch with broadcasts and three host sums.  Read at the
  extended reals, both sides are the same sums of the same products, term by term (a lane sum and a host sum
  from zero are the same finite sum; the kernel's signed conversion of a widened compare bit and the host's
  unsigned conversion of the bit are the same 0 or 1), so no finiteness of the inputs is used.  The index maps
  of the kernel's windows do not read the prefetched node counts, so the pipeline's side condition on them is
  trivially true.
-/
import proofs.«400375_j15135464751755_1_alg».proof.Defs
import proofs.«400375_j15135464751755_1_alg».proof.Proof.Gen.Kernel
import proofs.«400375_j15135464751755_1_alg».proof.Proof.Gen.Kernel.Skeleton
import proofs.«400375_j15135464751755_1_alg».proof.Proof.Gen.Kernel.Launch
import proofs.«400375_j15135464751755_1_alg».proof.Proof.Gen.Kernel.Points
import proofs.«400375_j15135464751755_1_alg».proof.Proof.Gen.Kernel.Frame
import proofs.«400375_j15135464751755_1_alg».proof.Proof.Gen.KernelIdeal
import proofs.«400375_j15135464751755_1_alg».proof.Proof.Gen.KernelIdeal.Skeleton
import proofs.«400375_j15135464751755_1_alg».proof.Proof.Gen.KernelIdeal.Launch
import proofs.«400375_j15135464751755_1_alg».proof.Proof.Gen.KernelIdeal.Points
import proofs.«400375_j15135464751755_1_alg».proof.Proof.Gen.KernelIdeal.Frame
import proofs.«400375_j15135464751755_1_alg».proof.Proof.Gen.ReferenceIdeal
import proofs.«400375_j15135464751755_1_alg».proof.Proof.Gen.ReferenceIdeal.Run
import proofs.«400375_j15135464751755_1_alg».proof.Proof.Gen.ReferenceIdeal.Read
import proofs.«400375_j15135464751755_1_alg».proof.Proof.Gen.Pre_finite_inputs
import proofs.«400375_j15135464751755_1_alg».proof.Proof.KernelValue
import proofs.«400375_j15135464751755_1_alg».proof.Proof.RefValue
import Idealize.ShloMosaic.Adequacy
import Idealize.ShloMosaic.Init

noncomputable section

namespace Cert.Proof

open Idealize.ShloMosaic Idealize.SL.Sem

/-- The word-level kernel runs and keeps its arguments: the side condition on the node counts is vacuous. -/
theorem frame_kernel : Cert.frame_Kernel := fun m ρ _ => Cert.Kernel.Gen.frame m ρ trivial

/-- So does the kernel read at the extended reals. -/
theorem frame_kernelIdeal : Cert.frame_KernelIdeal := fun m ρ _ => Cert.KernelIdeal.Gen.frame m ρ trivial

/-- The reference is a straight line of host operations. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the stacked pair of soft histograms of the same arrays. -/
theorem algebraic : Cert.algebraic_KernelIdeal_ReferenceIdeal := by
  intro m ρ m' ρ' _ hagree
  refine ⟨fun c => Cert.DegreeHist.result (Cert.KernelIdeal.KValue.adj m c) (Cert.KernelIdeal.KValue.num m c)
    (Cert.KernelIdeal.KValue.ctr m c) (Cert.KernelIdeal.KValue.wid m c), Cert.KernelIdeal.KValue.run m ρ trivial, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.v49_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
